-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 40
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000, .f32⟩
  | .hbm, ⟨44, _⟩ => ⟨S50000x1, .f32⟩
  | .hbm, ⟨45, _⟩ => ⟨S_, .f32⟩
  | .hbm, ⟨46, _⟩ => ⟨S50000x1, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000, .f32⟩
  | .hbm, ⟨53, _⟩ => ⟨S50000x1, .f32⟩
  | .hbm, ⟨54, _⟩ => ⟨S_, .f32⟩
  | .hbm, ⟨55, _⟩ => ⟨S50000x1, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x1, .f32⟩
  | .hbm, ⟨61, _⟩ => ⟨S50000x1, .f32⟩
  | .hbm, ⟨62, _⟩ => ⟨S50000x1, .f32⟩
  | .hbm, ⟨63, _⟩ => ⟨S50000x128, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_cst : Ref sig .tc := ⟨.hbm, 71, rfl⟩
abbrev main_call0_v0 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RowSpec.lean ====
/-
  One node's output as a function of one row of features.

  For a node with neighbour-mean row `a` and own row `x` (128 features each), weights `Wl`, `Wr` (128 × 128), bias
  `bl`, scale `g` and shift `b`:
    z j   = (∑ k, a k · Wl k j  +  ∑ k, x k · Wr k j) + bl j          (the two projections, then the bias)
    μ     = (∑ j, z j) / 128,     d j = z j − μ,     v = (∑ j, d j · d j) / 128
    out j = max (d j · rsqrt (v + ε) · g j + b j) 0
  on the extended reals, with 128 and ε the values of the two f32 words both programs carry. The other spelling of
  `z`, bias added between the two projections, is the same number: addition of extended reals is commutative and
  associative (`lin_bias_first`); no finiteness is needed anywhere.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The word `128.0` and the word of `ε`, as the extended reals they denote. -/
abbrev c128 : EReal := Ideal.ofBits .f32 0x43000000#32
abbrev eps : EReal := Ideal.ofBits .f32 0x3727C5AC#32

/-- The two projections summed, then the bias. -/
def lin (a x : Fin 128 → EReal) (Wl Wr : Fin 128 → Fin 128 → EReal) (bl : Fin 128 → EReal) (j : Fin 128) : EReal :=
  (∑ k : Fin 128, a k * Wl k j + ∑ k : Fin 128, x k * Wr k j) + bl j

/-- The bias added between the two projections gives the same row. -/
theorem lin_bias_first (a x : Fin 128 → EReal) (Wl Wr : Fin 128 → Fin 128 → EReal) (bl : Fin 128 → EReal) (j : Fin 128) :
    (∑ k : Fin 128, a k * Wl k j + bl j) + ∑ k : Fin 128, x k * Wr k j = lin a x Wl Wr bl j :=
  add_right_comm _ _ _

/-- The row's mean, its centred entries, and the mean of their squares. -/
def mean (z : Fin 128 → EReal) : EReal := Ideal.div (∑ j : Fin 128, z j) c128
def cen (z : Fin 128 → EReal) (j : Fin 128) : EReal := z j - mean z
def var (z : Fin 128 → EReal) : EReal := Ideal.div (∑ j : Fin 128, cen z j * cen z j) c128

/-- The normalized row, scaled (before the shift and the clamp at zero). -/
def scaled (z g : Fin 128 → EReal) (j : Fin 128) : EReal := cen z j * Ideal.rsqrt (var z + eps) * g j

/-- The row's output. -/
def out (z g b : Fin 128 → EReal) (j : Fin 128) : EReal := max (scaled z g j + b j) 0

/-- Row `r` of a matrix with 128 columns, a 128 × 128 matrix by coordinates, and a vector stored as `[128]` or `[1, 128]`. -/
def row {n : Nat} (M : (⟨2, ![n, 128]⟩ : Shape).Idx → EReal) (r : Fin n) : Fin 128 → EReal := fun k => M (ix2 r k)
def mat (W : (⟨2, ![128, 128]⟩ : Shape).Idx → EReal) : Fin 128 → Fin 128 → EReal := fun k j => W (ix2 k j)
def vec (v : (⟨1, ![128]⟩ : Shape).Idx → EReal) : Fin 128 → EReal := fun j => v (ix1 j)
def vecRow (v : (⟨2, ![1, 128]⟩ : Shape).Idx → EReal) : Fin 128 → EReal := fun j => v (ix2 (0 : Fin 1) j)

/-- The output at row `r`, column `j`, from the feature matrix `X`, the neighbour-mean matrix `A` and the parameters. -/
def outAt {n : Nat} (X A : (⟨2, ![n, 128]⟩ : Shape).Idx → EReal) (Wl Wr : Fin 128 → Fin 128 → EReal)
    (bl g b : Fin 128 → EReal) (r : Fin n) (j : Fin 128) : EReal :=
  out (lin (row A r) (row X r) Wl Wr bl) g b j

/-- The whole output matrix. -/
def outMat {n : Nat} (X A : (⟨2, ![n, 128]⟩ : Shape).Idx → EReal) (Wl Wr : Fin 128 → Fin 128 → EReal)
    (bl g b : Fin 128 → EReal) : (⟨2, ![n, 128]⟩ : Shape).Idx → EReal :=
  fun i => outAt X A Wl Wr bl g b ⟨(i 0).val, idx2_lt0 i⟩ ⟨(i 1).val, idx2_lt1 i⟩

theorem outMat_ix2 {n : Nat} (X A : (⟨2, ![n, 128]⟩ : Shape).Idx → EReal) (Wl Wr : Fin 128 → Fin 128 → EReal)
    (bl g b : Fin 128 → EReal) (r : Fin n) (j : Fin 128) :
    outMat X A Wl Wr bl g b (ix2 r j) = outAt X A Wl Wr bl g b r j := rfl

end Cert.Sage

end
-- ==== Proof.LibRowOps.lean ====
/-
  Row-wise layout and reduction readings used by kernels that normalize each row of a matrix:
  a vector `[a]` stored as a column `[a, 1]`, a column `[a, 1]` broadcast along rows to `[a, b]`, and the sum of a
  matrix over its second axis read at a row as a sum over that row's entries (exact, on the extended reals).
-/
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.RowOps

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix over its second axis, read at row `r`: the sum of that row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = ∑ k : Fin b, src (ix2 r k)
  refine Finset.sum_congr rfl fun k _ => congrArg src (funext fun c => Fin.ext ?_)
  match c with
  | ⟨0, _⟩ => rfl
  | ⟨1, _⟩ => rfl

end Cert.RowOps

end
-- ==== Proof.KernelBlock.lean ====
/-
  What the kernel body leaves in one 2000-row output block, entry by entry.

  The body's value splits in two: the PROJECTION `projBlock` — the neighbour-mean block times `W_l` plus the feature
  block times `W_r` (both products into a zero accumulator, the bf16 format changes being the identity on extended
  reals), plus the bias row — and the NORMALIZATION `normBlock` of that matrix: each row centred by its mean, multiplied
  by `rsqrt` of its mean square plus ε, then by the scale row. The stored block adds the shift row and clamps at zero.
  Read at row `p`, column `q`, all of this is `Sage.outAt` of the loaded blocks: the row's sums are sums over the 128
  columns, and a `[2000, 1]` column read back along a row is that row's entry.
-/
import proofs.«112687_j35115652612241_1_alg».proof.Proof.Gen.KernelIdeal.Value
import proofs.«112687_j35115652612241_1_alg».proof.Proof.RowSpec
import proofs.«112687_j35115652612241_1_alg».proof.Proof.LibRowOps
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.TcCoe Idealize.ShloMosaic.ValueIdx
open Cert.Sage Cert.RowOps

/-! ## The payload in two parts -/

section parts
variable {F : FTy → Type} [FloatOps F]

/-- The projection: `agg · W_l + x · W_r + b_l` on one block (`v1` the neighbour-mean block, `v0` the feature block). -/
def projBlock (v0 v1 : Vec F S2000x128 .f32) (v5 v7 : Vec F S128x128 .f32) (v12 : Vec F S1x128 .f32) : FVec F S2000x128 .f32 :=
  addf (addf
      (matmul dot_S2000x128_S128x128_S2000x128_1_0_0_1_n_n none
        (truncf .bf16 (shapeCast S2000x128 v1 shapeCasts_S2000x128_S2000x128) bitsLt_bf16_f32) (truncf .bf16 v5 bitsLt_bf16_f32)
        (constant S2000x128 .f32 0x00000000#32))
      (matmul dot_S2000x128_S128x128_S2000x128_1_0_0_1_n_n none
        (truncf .bf16 v0 bitsLt_bf16_f32) (truncf .bf16 v7 bitsLt_bf16_f32) (constant S2000x128 .f32 0x00000000#32)))
    (broadcastTo S2000x128 (shapeCast S1x128 v12 shapeCasts_S1x128_S1x128) broadcasts_S1x128_S2000x128)

/-- The column of row means of a block: the row sums, as a column, over 128. -/
def meanCol (z : FVec F S2000x128 .f32) : FVec F S2000x1 .f32 :=
  divf (shapeCast S2000x1 (multiReduction .add [1] S2000 z 0x00000000#32 reduces_S2000x128_S2000 (.inl rfl) rfl) shapeCasts_S2000_S2000x1)
    (broadcast S2000x1 (Scalar.ofBits .f32 0x43000000#32))

/-- The block with each row's mean taken off. -/
def cenBlock (z : FVec F S2000x128 .f32) : FVec F S2000x128 .f32 :=
  subf z (broadcastTo S2000x128 (meanCol z) broadcasts_S2000x1_S2000x128)

/-- The normalization, scaled by the row `v32`. -/
def normBlock (z : FVec F S2000x128 .f32) (v32 : Vec F S1x128 .f32) : FVec F S2000x128 .f32 :=
  mulf (mulf (cenBlock z)
      (broadcastTo S2000x128
        (rsqrt (addf (meanCol (mulf (cenBlock z) (cenBlock z))) (broadcast S2000x1 (Scalar.ofBits .f32 0x3727C5AC#32))))
        broadcasts_S2000x1_S2000x128))
    (broadcastTo S2000x128 (shapeCast S1x128 v32 shapeCasts_S1x128_S1x128) broadcasts_S1x128_S2000x128)

/-- The body's arithmetic is the normalization of the projection. -/
theorem pay2_split (v0 v1 : Vec F S2000x128 .f32) (v5 v7 : Vec F S128x128 .f32) (v12 v32 : Vec F S1x128 .f32) :
    k0_pay2 v0 v1 v5 v7 v12 v32 = normBlock (projBlock v0 v1 v5 v7 v12) v32 := rfl

end parts

/-! ## The matrix product read at an entry -/

theorem lhs_dot_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_dot_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_dot_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_dot_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block times a 128 × 128 matrix into a zero accumulator, at `(p, q)`: row `p` against column `q`. -/
theorem matmul_zero_apply (lhs : FVec Ideal S2000x128 .bf16) (rhs : FVec Ideal S128x128 .bf16) (p : Fin 2000) (q : Fin 128) :
    matmul dot_S2000x128_S128x128_S2000x128_1_0_0_1_n_n none lhs rhs (constant S2000x128 .f32 0x00000000#32) (ix2 p q)
      = ∑ k : Fin 128, lhs (ix2 p k) * rhs (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The two parts read at an entry -/

/-- The projection at `(p, q)` is the row's linear form. -/
theorem projBlock_apply (P0 P1 : FVec Ideal S2000x128 .f32) (P2 P3 : FVec Ideal S128x128 .f32) (P4 : FVec Ideal S1x128 .f32)
    (p : Fin 2000) (q : Fin 128) :
    projBlock (F := Ideal) P0 P1 P2 P3 P4 (ix2 p q) = lin (row P1 p) (row P0 p) (mat P2) (mat P3) (vecRow P4) q := by
  unfold projBlock
  rw [addf_apply, addf_apply, matmul_zero_apply, matmul_zero_apply, broadcastTo_1b_ab_apply, shapeCast_self, shapeCast_self]
  rfl

/-- The column of means at row `p` is the row's mean. -/
theorem meanCol_apply (Z : FVec Ideal S2000x128 .f32) (p : Fin 2000) (u : Fin 1) :
    meanCol Z (ix2 p u) = mean (row Z p) := by
  unfold meanCol
  rw [divf_apply, shapeCast_a_a1_apply, rowSum_apply]
  rfl

/-- The centred block at `(p, q)`. -/
theorem cenBlock_apply (Z : FVec Ideal S2000x128 .f32) (p : Fin 2000) (q : Fin 128) :
    cenBlock Z (ix2 p q) = cen (row Z p) q := by
  unfold cenBlock
  rw [subf_apply, broadcastTo_a1_ab_apply, meanCol_apply]
  rfl

/-- The mean square of the centred block at row `p` is the row's variance. -/
theorem varCol_apply (Z : FVec Ideal S2000x128 .f32) (p : Fin 2000) (u : Fin 1) :
    meanCol (mulf (cenBlock Z) (cenBlock Z)) (ix2 p u) = var (row Z p) := by
  rw [meanCol_apply]
  unfold mean var
  refine congrArg (fun s => Ideal.div s c128) (Finset.sum_congr rfl fun j _ => ?_)
  show (mulf (cenBlock Z) (cenBlock Z)) (ix2 p j) = _
  rw [mulf_apply, cenBlock_apply]

/-- The normalization at `(p, q)`. -/
theorem normBlock_apply (Z : FVec Ideal S2000x128 .f32) (P5 : FVec Ideal S1x128 .f32) (p : Fin 2000) (q : Fin 128) :
    normBlock Z P5 (ix2 p q) = scaled (row Z p) (vecRow P5) q := by
  unfold normBlock
  rw [mulf_apply, mulf_apply, broadcastTo_1b_ab_apply, shapeCast_self, broadcastTo_a1_ab_apply, cenBlock_apply]
  show cen (row Z p) q * Ideal.rsqrt ((addf (meanCol (mulf (cenBlock Z) (cenBlock Z))) (broadcast S2000x1 (Scalar.ofBits .f32 0x3727C5AC#32))) (ix2 p (0 : Fin 1))) * P5 (ix2 (0 : Fin 1) q) = _
  rw [addf_apply, varCol_apply]
  rfl

/-- The body's arithmetic at `(p, q)`: the scaled normalized row of the projection. -/
theorem pay2_apply (P0 P1 : FVec Ideal S2000x128 .f32) (P2 P3 : FVec Ideal S128x128 .f32) (P4 P5 : FVec Ideal S1x128 .f32)
    (p : Fin 2000) (q : Fin 128) :
    k0_pay2 (F := Ideal) P0 P1 P2 P3 P4 P5 (ix2 p q)
      = scaled (lin (row P1 p) (row P0 p) (mat P2) (mat P3) (vecRow P4)) (vecRow P5) q := by
  rw [pay2_split, normBlock_apply]
  refine congrArg (fun z => scaled z (vecRow P5) q) (funext fun j => ?_)
  exact projBlock_apply P0 P1 P2 P3 P4 p j

/-- What the body stores, at `(p, q)`: the output of row `p` of the loaded blocks. -/
theorem stored_apply (P0 P1 : FVec Ideal S2000x128 .f32) (P2 P3 : FVec Ideal S128x128 .f32) (P4 P5 P6 : FVec Ideal S1x128 .f32)
    (p : Fin 2000) (q : Fin 128) :
    Value.E7 (F := Ideal) P0 P1 P2 P3 P4 P5 P6 (ix2 p q) = outAt P0 P1 (mat P2) (mat P3) (vecRow P4) (vecRow P5) (vecRow P6) p q := by
  show max (k0_pay2 (F := Ideal) P0 P1 P2 P3 P4 P5 (Value.ix7_0 (ix2 p q)) + P6 (Value.ix7_1 (ix2 p q))) (Ideal.ofBits .f32 0x00000000#32) = _
  rw [Ideal.ofBits_zero_f32]
  have e0 : Value.ix7_0 (ix2 p q) = ix2 p q := funext fun a => Fin.ext (by match a with | ⟨0, _⟩ => rfl | ⟨1, _⟩ => rfl)
  have e1 : Value.ix7_1 (ix2 p q) = ix2 (0 : Fin 1) q := funext fun a => Fin.ext (by match a with | ⟨0, _⟩ => rfl | ⟨1, _⟩ => rfl)
  rw [e0, e1, pay2_apply]
  rfl

end Cert.KernelIdeal.Block

end
-- ==== Proof.KernelHost.lean ====
/-
  The arrays the kernel region finds, as functions of the program's arguments.

  Before the region the host computes the neighbour mean: the source ids (negative ones wrapped by 50000) gather rows of
  the features, which are summed into the target ids' rows; the same scatter of ones counts each target's edges; the row
  sums are divided by the counts clamped below at one. The bias, the scale and the shift are re-laid from `[128]` to
  `[1, 128]`. `aggOf` names the first as one function of the features and the edge list; nothing here opens it.
-/
import proofs.«112687_j35115652612241_1_alg».proof.Proof.Gen.KernelIdeal.Frame
import Idealize.ShloMosaic.Lib.StableHlo.Run

noncomputable section

namespace Cert.KernelIdeal.HostPart

open Cert.KernelIdeal Cert.KernelIdeal.Gen Idealize.ShloMosaic Idealize.ShloMosaic.TcCoe Idealize.SL.Sem Idealize.ShloMosaic.StableHlo

section
variable {F : FTy → Type} [FloatOps F]

/-- One row of the edge list, as a vector of 800000 ids. -/
def edgeRow (e : (⟨S2x800000, .i32⟩ : BufTy).Contents (Elt F)) (off : Fin 2 → Nat) (h : S2x800000.Slices off S1x800000) :
    (⟨S800000, .i32⟩ : BufTy).Contents (Elt F) :=
  shapeCast _ (extractStridedSlice S1x800000 off e h) shapeCasts_S1x800000_S800000

/-- The neighbour mean of the features `x` over the edge list `e` (row 0 the sources, row 1 the targets). -/
def aggOf (x : (⟨S50000x128, .f32⟩ : BufTy).Contents (Elt F)) (e : (⟨S2x800000, .i32⟩ : BufTy).Contents (Elt F)) :
    (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 (edgeRow e ![1, 0] slices_S2x800000_S1x800000_1_0))
      (Host.gather gather_S50000x128_S800000x1_S800000x128_1_0_n_n_0_1_1128 x
        (broadcastInDim S800000x1 ![0] bcast_S800000_S800000x1_0
          (select (cmpi .slt (edgeRow e ![0, 0] slices_S2x800000_S1x800000_0_0) (broadcastInDim S800000 ![] bcast_S_S800000 (constantI S_ 32 0#32)))
            (addi (edgeRow e ![0, 0] slices_S2x800000_S1x800000_0_0) (broadcastInDim S800000 ![] bcast_S_S800000 (constantI S_ 32 50000#32)))
            (edgeRow e ![0, 0] slices_S2x800000_S1x800000_0_0)))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 (edgeRow e ![1, 0] slices_S2x800000_S1x800000_1_0))
            (broadcastInDim S800000 ![] bcast_S_S800000 (constant S_ .f32 0x3F800000#32)))
          (broadcastInDim S50000 ![] bcast_S_S50000 (constant S_ .f32 0x3F800000#32)))))

variable (m : (ℓ : Loc nD τ sig) → Buf (Elt F) ℓ)

/-- The region finds the neighbour mean in the array its second window stages. -/
theorem V_agg (c : Dev nD) :
    (V m c main_v22 : (⟨S50000x128, .f32⟩ : BufTy).Contents (Elt F))
      = aggOf (m ((c.tc : Thread nD τ).loc main_arg0)) (m ((c.tc : Thread nD τ).loc main_arg1)) := by
  dsimp only [Gen.V, Gen.hostOps0]
  after_results_simp <;> rfl

/-- The bias, the scale and the shift as `[1, 128]` rows. -/
theorem V_bias (c : Dev nD) :
    (V m c main_v23 : (⟨S1x128, .f32⟩ : BufTy).Contents (Elt F))
      = shapeCast _ (m ((c.tc : Thread nD τ).loc main_arg3)) shapeCasts_S128_S1x128 := by
  dsimp only [Gen.V, Gen.hostOps0]
  after_results_simp <;> rfl
theorem V_scale (c : Dev nD) :
    (V m c main_v24 : (⟨S1x128, .f32⟩ : BufTy).Contents (Elt F))
      = shapeCast _ (m ((c.tc : Thread nD τ).loc main_arg5)) shapeCasts_S128_S1x128 := by
  dsimp only [Gen.V, Gen.hostOps0]
  after_results_simp <;> rfl
theorem V_shift (c : Dev nD) :
    (V m c main_v25 : (⟨S1x128, .f32⟩ : BufTy).Contents (Elt F))
      = shapeCast _ (m ((c.tc : Thread nD τ).loc main_arg6)) shapeCasts_S128_S1x128 := by
  dsimp only [Gen.V, Gen.hostOps0]
  after_results_simp <;> rfl

end

-- From here on the neighbour mean is a name: what follows reads it at an index and never computes with it.
attribute [irreducible] aggOf

end Cert.KernelIdeal.HostPart

end
-- ==== Proof.KernelValue.lean ====
/-
  The kernel's result array as one function of the arguments.

  Grid point `t` (of 25) stages rows `2000·t … 2000·t + 1999` of the features and of the neighbour mean, and the whole of
  the two weight matrices and the three parameter rows; what it writes back is `Sage.outAt` of those blocks
  (`Block.stored_apply`), that is, rows `2000·t …` of `Sage.outMat` of the whole arrays. The 25 row blocks tile the
  50000 rows, so the array ends at `outMat` everywhere. In order: the index maps decided over the grid, the staged
  blocks read off the arguments, what a point writes back, membership in a block, the cover, the array, the run.
-/
import proofs.«112687_j35115652612241_1_alg».proof.Proof.Gen.KernelIdeal.Value
import proofs.«112687_j35115652612241_1_alg».proof.Proof.KernelBlock
import proofs.«112687_j35115652612241_1_alg».proof.Proof.KernelHost
import Idealize.ShloMosaic.Lib.ValueLayout

noncomputable section

namespace Cert.KernelIdeal.Arr

open Cert.KernelIdeal Cert.KernelIdeal.Gen Idealize.ShloMosaic Idealize.ShloMosaic.TcCoe Idealize.SL.Sem
open Idealize.ShloMosaic.Pipeline (Dat)
open Idealize.ShloMosaic.ValueIdx Cert.Sage Cert.KernelIdeal.HostPart

variable (m : (ℓ : Loc nD τ sig) → Buf (Elt Ideal) ℓ) (ρ : Dev nD → PrngReg)

/-- The neighbour mean of the launch contents. -/
abbrev agg (c : Dev nD) : (⟨S50000x128, .f32⟩ : BufTy).Contents (Elt Ideal) :=
  aggOf (m ((c.tc : Thread nD τ).loc main_arg0)) (m ((c.tc : Thread nD τ).loc main_arg1))

/-- What the result array holds: the output matrix of the features, their neighbour mean and the parameters. -/
abbrev result (c : Dev nD) : Buf (Elt Ideal) ((c : Thread nD τ).loc main_v26) :=
  outMat (n := 50000) (m ((c.tc : Thread nD τ).loc main_arg0)) (agg m c) (mat (m ((c.tc : Thread nD τ).loc main_arg2)))
    (mat (m ((c.tc : Thread nD τ).loc main_arg4))) (vec (m ((c.tc : Thread nD τ).loc main_arg3)))
    (vec (m ((c.tc : Thread nD τ).loc main_arg5))) (vec (m ((c.tc : Thread nD τ).loc main_arg6)))

/-! ## The grid -/

theorem point_lt (t : Fin cfg0.N) : t.val < 25 := lt_of_lt_of_eq t.isLt N_0

/-- The row-blocked windows sit at block `(t, 0)`, the others at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The array row under row `p` of point `t`'s block. -/
def rowOf (t : Fin cfg0.N) (p : Fin 2000) : Fin 50000 := ⟨2000 * t.val + p.val, by have := point_lt t; have := p.isLt; omega⟩

/-! ## The blocks a point stages, read off the arguments -/

/-! Each window's block at point `t`, read through the window from ANY array: the row-blocked windows read rows
    `2000·t + p`, the others read the array itself. -/

theorem read_win0 (A : (⟨S50000x128, .f32⟩ : BufTy).Contents (Elt Ideal)) (t : Fin cfg0.N) (p : Fin 2000) (k : Fin 128) :
    (((cfg0.win 0).blk t).view.read (Elt Ideal) A : FVec Ideal S2000x128 .f32) (ix2 p k) = A (ix2 (rowOf t p) k) := by
  obtain ⟨e0, e1, -⟩ := idx_facts t
  show A (((cfg0.win 0).blk t).view.emb (ix2 p k)) = A (ix2 (rowOf t p) k)
  refine congrArg A (funext fun a => Fin.ext ?_)
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

theorem read_win1 (A : (⟨S50000x128, .f32⟩ : BufTy).Contents (Elt Ideal)) (t : Fin cfg0.N) (p : Fin 2000) (k : Fin 128) :
    (((cfg0.win 1).blk t).view.read (Elt Ideal) A : FVec Ideal S2000x128 .f32) (ix2 p k) = A (ix2 (rowOf t p) k) := by
  obtain ⟨-, -, e0, e1, -⟩ := idx_facts t
  show A (((cfg0.win 1).blk t).view.emb (ix2 p k)) = A (ix2 (rowOf t p) k)
  refine congrArg A (funext fun a => Fin.ext ?_)
  match a with
  | ⟨0, _⟩ => show win0_1.index t (0 : Fin 2) * 2000 + 1 * p.val = 2000 * t.val + p.val; rw [e0]; omega
  | ⟨1, _⟩ => show win0_1.index t (1 : Fin 2) * 128 + 1 * k.val = k.val; rw [e1]; omega

theorem read_win2 (A : (⟨S128x128, .f32⟩ : BufTy).Contents (Elt Ideal)) (t : Fin cfg0.N) (k j : Fin 128) :
    (((cfg0.win 2).blk t).view.read (Elt Ideal) A : FVec Ideal S128x128 .f32) (ix2 k j) = A (ix2 k j) := by
  obtain ⟨-, -, -, -, e0, e1, -⟩ := idx_facts t
  show A (((cfg0.win 2).blk t).view.emb (ix2 k j)) = A (ix2 k j)
  refine congrArg A (funext fun a => Fin.ext ?_)
  match a with
  | ⟨0, _⟩ => show win0_2.index t (0 : Fin 2) * 128 + 1 * k.val = k.val; rw [e0]; omega
  | ⟨1, _⟩ => show win0_2.index t (1 : Fin 2) * 128 + 1 * j.val = j.val; rw [e1]; omega

theorem read_win3 (A : (⟨S1x128, .f32⟩ : BufTy).Contents (Elt Ideal)) (t : Fin cfg0.N) (j : Fin 128) :
    (((cfg0.win 3).blk t).view.read (Elt Ideal) A : FVec Ideal S1x128 .f32) (ix2 (0 : Fin 1) j) = A (ix2 (0 : Fin 1) j) := by
  obtain ⟨-, -, -, -, -, -, e0, e1, -⟩ := idx_facts t
  show A (((cfg0.win 3).blk t).view.emb (ix2 (0 : Fin 1) j)) = A (ix2 (0 : Fin 1) j)
  refine congrArg A (funext fun a => Fin.ext ?_)
  match a with
  | ⟨0, _⟩ => show win0_3.index t (0 : Fin 2) * 1 + 1 * 0 = 0; rw [e0]
  | ⟨1, _⟩ => show win0_3.index t (1 : Fin 2) * 128 + 1 * j.val = j.val; rw [e1]; omega

theorem read_win4 (A : (⟨S128x128, .f32⟩ : BufTy).Contents (Elt Ideal)) (t : Fin cfg0.N) (k j : Fin 128) :
    (((cfg0.win 4).blk t).view.read (Elt Ideal) A : FVec Ideal S128x128 .f32) (ix2 k j) = A (ix2 k j) := by
  obtain ⟨-, -, -, -, -, -, -, -, e0, e1, -⟩ := idx_facts t
  show A (((cfg0.win 4).blk t).view.emb (ix2 k j)) = A (ix2 k j)
  refine congrArg A (funext fun a => Fin.ext ?_)
  match a with
  | ⟨0, _⟩ => show win0_4.index t (0 : Fin 2) * 128 + 1 * k.val = k.val; rw [e0]; omega
  | ⟨1, _⟩ => show win0_4.index t (1 : Fin 2) * 128 + 1 * j.val = j.val; rw [e1]; omega

theorem read_win5 (A : (⟨S1x128, .f32⟩ : BufTy).Contents (Elt Ideal)) (t : Fin cfg0.N) (j : Fin 128) :
    (((cfg0.win 5).blk t).view.read (Elt Ideal) A : FVec Ideal S1x128 .f32) (ix2 (0 : Fin 1) j) = A (ix2 (0 : Fin 1) j) := by
  obtain ⟨-, -, -, -, -, -, -, -, -, -, e0, e1, -⟩ := idx_facts t
  show A (((cfg0.win 5).blk t).view.emb (ix2 (0 : Fin 1) j)) = A (ix2 (0 : Fin 1) j)
  refine congrArg A (funext fun a => Fin.ext ?_)
  match a with
  | ⟨0, _⟩ => show win0_5.index t (0 : Fin 2) * 1 + 1 * 0 = 0; rw [e0]
  | ⟨1, _⟩ => show win0_5.index t (1 : Fin 2) * 128 + 1 * j.val = j.val; rw [e1]; omega

theorem read_win6 (A : (⟨S1x128, .f32⟩ : BufTy).Contents (Elt Ideal)) (t : Fin cfg0.N) (j : Fin 128) :
    (((cfg0.win 6).blk t).view.read (Elt Ideal) A : FVec Ideal S1x128 .f32) (ix2 (0 : Fin 1) j) = A (ix2 (0 : Fin 1) j) := by
  obtain ⟨-, -, -, -, -, -, -, -, -, -, -, -, e0, e1, -⟩ := idx_facts t
  show A (((cfg0.win 6).blk t).view.emb (ix2 (0 : Fin 1) j)) = A (ix2 (0 : Fin 1) j)
  refine congrArg A (funext fun a => Fin.ext ?_)
  match a with
  | ⟨0, _⟩ => show win0_6.index t (0 : Fin 2) * 1 + 1 * 0 = 0; rw [e0]
  | ⟨1, _⟩ => show win0_6.index t (1 : Fin 2) * 128 + 1 * j.val = j.val; rw [e1]; omega

/-! The blocks the body is run with, read off the arguments. -/

theorem xblk_apply (c : Dev nD) (t : Fin cfg0.N) (p : Fin 2000) (k : Fin 128) :
    (iblk m c 0 t : FVec Ideal S2000x128 .f32) (ix2 p k) = m ((c.tc : Thread nD τ).loc main_arg0) (ix2 (rowOf t p) k) := by
  have hV : V m c (Pipeline.arrRef spec0 0) = m ((c.tc : Thread nD τ).loc main_arg0) := V_main_arg0 m c
  unfold iblk
  rw [hV]
  exact read_win0 _ t p k

theorem aggblk_apply (c : Dev nD) (t : Fin cfg0.N) (p : Fin 2000) (k : Fin 128) :
    (iblk m c 1 t : FVec Ideal S2000x128 .f32) (ix2 p k) = agg m c (ix2 (rowOf t p) k) := by
  have hV : V m c (Pipeline.arrRef spec0 1) = agg m c := V_agg m c
  unfold iblk
  rw [hV]
  exact read_win1 (agg m c) t p k

theorem wlblk_apply (c : Dev nD) (t : Fin cfg0.N) (k j : Fin 128) :
    (iblk m c 2 t : FVec Ideal S128x128 .f32) (ix2 k j) = m ((c.tc : Thread nD τ).loc main_arg2) (ix2 k j) := by
  have hV : V m c (Pipeline.arrRef spec0 2) = m ((c.tc : Thread nD τ).loc main_arg2) := V_main_arg2 m c
  unfold iblk
  rw [hV]
  exact read_win2 _ t k j

theorem wrblk_apply (c : Dev nD) (t : Fin cfg0.N) (k j : Fin 128) :
    (iblk m c 4 t : FVec Ideal S128x128 .f32) (ix2 k j) = m ((c.tc : Thread nD τ).loc main_arg4) (ix2 k j) := by
  have hV : V m c (Pipeline.arrRef spec0 4) = m ((c.tc : Thread nD τ).loc main_arg4) := V_main_arg4 m c
  unfold iblk
  rw [hV]
  exact read_win4 _ t k j

theorem biasblk_apply (c : Dev nD) (t : Fin cfg0.N) (j : Fin 128) :
    (iblk m c 3 t : FVec Ideal S1x128 .f32) (ix2 (0 : Fin 1) j) = m ((c.tc : Thread nD τ).loc main_arg3) (ix1 j) := by
  have hV : V m c (Pipeline.arrRef spec0 3) = shapeCast _ (m ((c.tc : Thread nD τ).loc main_arg3)) shapeCasts_S128_S1x128 := V_bias m c
  unfold iblk
  rw [hV]
  exact (read_win3 _ t j).trans (shapeCast_a_1a_apply _ shapeCasts_S128_S1x128 (0 : Fin 1) j)

theorem scaleblk_apply (c : Dev nD) (t : Fin cfg0.N) (j : Fin 128) :
    (iblk m c 5 t : FVec Ideal S1x128 .f32) (ix2 (0 : Fin 1) j) = m ((c.tc : Thread nD τ).loc main_arg5) (ix1 j) := by
  have hV : V m c (Pipeline.arrRef spec0 5) = shapeCast _ (m ((c.tc : Thread nD τ).loc main_arg5)) shapeCasts_S128_S1x128 := V_scale m c
  unfold iblk
  rw [hV]
  exact (read_win5 _ t j).trans (shapeCast_a_1a_apply _ shapeCasts_S128_S1x128 (0 : Fin 1) j)

theorem shiftblk_apply (c : Dev nD) (t : Fin cfg0.N) (j : Fin 128) :
    (iblk m c 6 t : FVec Ideal S1x128 .f32) (ix2 (0 : Fin 1) j) = m ((c.tc : Thread nD τ).loc main_arg6) (ix1 j) := by
  have hV : V m c (Pipeline.arrRef spec0 6) = shapeCast _ (m ((c.tc : Thread nD τ).loc main_arg6)) shapeCasts_S128_S1x128 := V_shift m c
  unfold iblk
  rw [hV]
  exact (read_win6 _ t j).trans (shapeCast_a_1a_apply _ shapeCasts_S128_S1x128 (0 : Fin 1) j)

/-! ## What a point writes back -/

theorem hz : (![0, 0] : Fin 2 → Nat) = fun _ => 0 := funext fun a => by fin_cases a <;> rfl

/-- The body's stored block at `(p, q)`, over the staged blocks as variables. -/
theorem out_apply (x0 x1 : FVec Ideal S2000x128 .f32) (x2 x4 : FVec Ideal S128x128 .f32) (x3 x5 x6 : FVec Ideal S1x128 .f32)
    (p : Fin 2000) (q : Fin 128) :
    out0_7 (F := Ideal) x0 x1 x2 x3 x4 x5 x6 (ix2 p q)
      = outAt x0 x1 (mat x2) (mat x4) (vecRow x3) (vecRow x5) (vecRow x6) p q := by
  unfold out0_7
  rw [Value.canon7_eq]
  simp only [View.ld_unit_zero (S := S2000x128) hz, View.ld_unit_zero (S := S128x128) hz, View.ld_unit_zero (S := S1x128) hz]
  exact Block.stored_apply x0 x1 x2 x4 x3 x5 x6 p q

/-- The body's stored block at `(p, q)` is the output matrix at `(r, q)` whenever row `p` of the two row blocks is row
    `r` of the feature and neighbour-mean matrices and the staged parameters are the parameters. -/
theorem block_eq (x0 x1 : FVec Ideal S2000x128 .f32) (x2 x4 : FVec Ideal S128x128 .f32) (x3 x5 x6 : FVec Ideal S1x128 .f32)
    (X A : (⟨S50000x128, .f32⟩ : BufTy).Contents (Elt Ideal)) (Wl Wr : (⟨S128x128, .f32⟩ : BufTy).Contents (Elt Ideal))
    (bl g b : (⟨S128, .f32⟩ : BufTy).Contents (Elt Ideal)) (r : Fin 50000) (p : Fin 2000) (q : Fin 128)
    (hX : ∀ k : Fin 128, x0 (ix2 p k) = X (ix2 r k)) (hA : ∀ k : Fin 128, x1 (ix2 p k) = A (ix2 r k))
    (hWl : ∀ k j : Fin 128, x2 (ix2 k j) = Wl (ix2 k j)) (hWr : ∀ k j : Fin 128, x4 (ix2 k j) = Wr (ix2 k j))
    (hb : ∀ j : Fin 128, x3 (ix2 (0 : Fin 1) j) = bl (ix1 j)) (hg : ∀ j : Fin 128, x5 (ix2 (0 : Fin 1) j) = g (ix1 j))
    (hs : ∀ j : Fin 128, x6 (ix2 (0 : Fin 1) j) = b (ix1 j)) :
    out0_7 (F := Ideal) x0 x1 x2 x3 x4 x5 x6 (ix2 p q)
      = outMat (n := 50000) X A (mat Wl) (mat Wr) (vec bl) (vec g) (vec b) (ix2 r q) := by
  rw [out_apply, outMat_ix2]
  unfold outAt
  have e1 : row (n := 2000) x1 p = row (n := 50000) A r := funext hA
  have e0 : row (n := 2000) x0 p = row (n := 50000) X r := funext hX
  have e2 : mat x2 = mat Wl := funext fun k => funext fun j => hWl k j
  have e4 : mat x4 = mat Wr := funext fun k => funext fun j => hWr k j
  have e3 : vecRow x3 = vec bl := funext hb
  have e5 : vecRow x5 = vec g := funext hg
  have e6 : vecRow x6 = vec b := funext hs
  rw [e0, e1, e2, e4, e3, e5, e6]

/-- The output window is not cut: what is written back is the staged block as it stands. -/
theorem cut_out (X : FVec Ideal S2000x128 .f32) (t : Fin cfg0.N) (y : S2000x128.Idx) :
    (cfg0.win 7).cut (grid0.coords t) X y = X y := rfl

/-- Row `p` of point `t`'s block of ANY array read through the output window. -/
theorem read_win7 (G : (⟨S50000x128, .f32⟩ : BufTy).Contents (Elt Ideal)) (t : Fin cfg0.N) (p : Fin 2000) (q : Fin 128) :
    (((cfg0.win 7).blk t).view.read (Elt Ideal) G : FVec Ideal S2000x128 .f32) (ix2 p q) = G (ix2 (rowOf t p) q) := by
  obtain ⟨-, -, -, -, -, -, -, -, -, -, -, -, -, -, e0, e1⟩ := idx_facts t
  show G (((cfg0.win 7).blk t).view.emb (ix2 p q)) = G (ix2 (rowOf t p) q)
  refine congrArg G (funext fun a => Fin.ext ?_)
  match a with
  | ⟨0, _⟩ => show win0_7.index t (0 : Fin 2) * 2000 + 1 * p.val = 2000 * t.val + p.val; rw [e0]; omega
  | ⟨1, _⟩ => show win0_7.index t (1 : Fin 2) * 128 + 1 * q.val = q.val; rw [e1]; omega

/-- WHAT POINT `t` WRITES BACK is block `t` of `result`. -/
theorem flushed_eq (c : Dev nD) (t : Fin cfg0.N) :
    (dats m 0 c).flushed 7 t = ((cfg0.win 7).blk t).view.read (Elt Ideal) (result m c) := by
  rw [Value.flushed7]
  funext y
  obtain ⟨p, q, rfl⟩ : ∃ (p : Fin 2000) (q : Fin 128), y = ix2 p q := ⟨y 0, y 1, eq_ix2 y⟩
  refine (cut_out _ t (ix2 p q)).trans ?_
  refine Eq.trans ?_ (read_win7 (result m c) t p q).symm
  exact block_eq (iblk m c 0 t) (iblk m c 1 t) (iblk m c 2 t) (iblk m c 4 t) (iblk m c 3 t) (iblk m c 5 t) (iblk m c 6 t)
    (m ((c.tc : Thread nD τ).loc main_arg0)) (agg m c) (m ((c.tc : Thread nD τ).loc main_arg2)) (m ((c.tc : Thread nD τ).loc main_arg4))
    (m ((c.tc : Thread nD τ).loc main_arg3)) (m ((c.tc : Thread nD τ).loc main_arg5)) (m ((c.tc : Thread nD τ).loc main_arg6))
    (rowOf t p) p q
    (fun k => xblk_apply m c t p k) (fun k => aggblk_apply m c t p k) (fun k j => wlblk_apply m c t k j) (fun k j => wrblk_apply m c t k j)
    (fun j => biasblk_apply m c t j) (fun j => scaleblk_apply m c t j) (fun j => shiftblk_apply m c t j)

/-! ## The cover, the array, the run -/

/-- An index of the array is in point `t`'s block iff each coordinate is in the block's range on its axis. -/
theorem mem_blk (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v26).slice (win0_7.rect t)).set ↔ _
  rw [View.set_slice_whole, Rect.mem_set_unit]
  exact Iff.rfl

/-- Every index lies in the block of the point its row falls in. -/
theorem cover (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  let t : Fin cfg0.N := Fin.cast N_0.symm ⟨(i 0).val / 2000, by omega⟩
  have ht : t.val = (i 0).val / 2000 := rfl
  obtain ⟨-, -, -, -, -, -, -, -, -, -, -, -, -, -, e0, e1⟩ := idx_facts t
  refine ⟨t, flush0_7 t, ?_⟩
  rw [mem_blk]
  intro a
  match a with
  | ⟨0, _⟩ => show win0_7.index t (0 : Fin 2) * 2000 ≤ (i 0).val ∧ (i 0).val < win0_7.index t (0 : Fin 2) * 2000 + 2000; rw [e0, ht]; omega
  | ⟨1, _⟩ => show win0_7.index t (1 : Fin 2) * 128 ≤ (i 1).val ∧ (i 1).val < win0_7.index t (1 : Fin 2) * 128 + 128; rw [e1]; omega

/-- THE ARRAY after the run. -/
theorem final (c : Dev nD) : (dats m 0 c).arrAt 7 cfg0.N = result m c :=
  (dats m 0 c).arrAt_eq_of_cover 7 (result m c) (fun t _ => flushed_eq m c t) cover

/-- The kernel's run: the result array ends at `result`, the arguments unchanged. -/
theorem run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Arr

end
-- ==== Proof.RefValue.lean ====
/-
  The reference, read row by row.

  After the neighbour mean `A` (the host operations both programs share), the reference forms
  `(A · W_l + b_l) + x · W_r`, takes each row's mean and mean square of the centred row (sums over the 128 columns
  divided by 128), multiplies the centred row by `rsqrt` of the latter plus ε, scales, shifts and clamps at zero.
  At row `r`, column `j` that is `Sage.outAt` of the whole arrays: the only difference from the kernel's spelling
  is where the bias enters the sum of the two projections (`Sage.lin_bias_first`).
-/
import proofs.«112687_j35115652612241_1_alg».proof.Proof.Gen.ReferenceIdeal.Read
import proofs.«112687_j35115652612241_1_alg».proof.Proof.RowSpec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Sage

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 : (⟨S128, .f32⟩ : BufTy).Contents (Elt Ideal))

/-- Two indices of a rank-2 shape are equal when their coordinates are. -/
local macro "idx_rfl2" : tactic =>
  `(tactic| exact funext fun a => Fin.ext (by match a with | ⟨0, _⟩ => rfl | ⟨1, _⟩ => rfl))
local macro "idx_rfl1" : tactic =>
  `(tactic| exact funext fun a => Fin.ext (by match a with | ⟨0, _⟩ => rfl))

/-- The neighbour mean, as the reference computes it. -/
abbrev aggRef : (⟨S50000x128, .f32⟩ : BufTy).Contents (Elt Ideal) := val_main_v22 (F := Ideal) x0 x1

/-- Row `r` before normalization. -/
abbrev zrow (r : Fin 50000) : Fin 128 → EReal := fun j => val_main_v28 (F := Ideal) x0 x1 x2 x3 x4 (ix2 r j)

/-- It is the row's linear form: bias first or last, the same sum. -/
theorem zrow_eq (r : Fin 50000) :
    zrow x0 x1 x2 x3 x4 r = lin (row (aggRef x0 x1) r) (row x0 r) (mat x2) (mat x4) (vec x3) := by
  funext j
  show val_main_v28 (F := Ideal) x0 x1 x2 x3 x4 (ix2 r j) = _
  rw [val_main_v28_apply, val_main_v26_apply, val_main_v23_apply, val_main_v25_apply, val_main_v24_apply, val_main_v27_apply]
  have el : ∀ k : Fin 128, lidx_main_v23 (ix2 r j) k = ix2 r k := fun k => by idx_rfl2
  have er : ∀ k : Fin 128, ridx_main_v23 (ix2 r j) k = ix2 k j := fun k => by idx_rfl2
  have el' : ∀ k : Fin 128, lidx_main_v27 (ix2 r j) k = ix2 r k := fun k => by idx_rfl2
  have er' : ∀ k : Fin 128, ridx_main_v27 (ix2 r j) k = ix2 k j := fun k => by idx_rfl2
  have eb : idx_main_v24 (idx_main_v25 (ix2 r j)) = ix1 j := by idx_rfl1
  simp only [el, er, el', er', eb]
  exact lin_bias_first (row (aggRef x0 x1) r) (row x0 r) (mat x2) (mat x4) (vec x3) j

/-- The column of means at row `r`. -/
theorem mean_apply (r : Fin 50000) (u : Fin 1) :
    val_main_v32 (F := Ideal) x0 x1 x2 x3 x4 (ix2 r u) = mean (zrow x0 x1 x2 x3 x4 r) := by
  rw [val_main_v32_apply, val_main_v30_apply, val_main_v29_apply, val_main_v31_apply, val_main_cst_5_apply, val_main_cst_4_apply]
  have e : ∀ k : Fin 128, idx_main_v29 (idx_main_v30 (ix2 r u)) k = ix2 r k := fun k => by idx_rfl2
  simp only [e, Ideal.hostDivf_def, Ideal.ofBits_def, Ideal.ofBits_zero_f32, zero_add]
  rfl

/-- The centred row (the reference forms it twice). -/
theorem cen_apply (r : Fin 50000) (j : Fin 128) :
    val_main_v34 (F := Ideal) x0 x1 x2 x3 x4 (ix2 r j) = cen (zrow x0 x1 x2 x3 x4 r) j := by
  rw [val_main_v34_apply, val_main_v33_apply]
  have e : idx_main_v33 (ix2 r j) = ix2 r (0 : Fin 1) := by idx_rfl2
  rw [e, mean_apply]
  rfl
theorem cen_apply' (r : Fin 50000) (j : Fin 128) :
    val_main_v41 (F := Ideal) x0 x1 x2 x3 x4 (ix2 r j) = cen (zrow x0 x1 x2 x3 x4 r) j := by
  rw [val_main_v41_apply, val_main_v40_apply]
  have e : idx_main_v40 (ix2 r j) = ix2 r (0 : Fin 1) := by idx_rfl2
  rw [e, mean_apply]
  rfl

/-- The column of mean squares at row `r`. -/
theorem var_apply (r : Fin 50000) (u : Fin 1) :
    val_main_v39 (F := Ideal) x0 x1 x2 x3 x4 (ix2 r u) = var (zrow x0 x1 x2 x3 x4 r) := by
  rw [val_main_v39_apply, val_main_v37_apply, val_main_v36_apply, val_main_v38_apply, val_main_cst_7_apply, val_main_cst_6_apply]
  show Ideal.div (Ideal.ofBits .f32 0x00000000#32 + ∑ k : Fin 128, val_main_v35 (F := Ideal) x0 x1 x2 x3 x4 (idx_main_v36 (idx_main_v37 (ix2 r u)) k)) c128 = _
  rw [Ideal.ofBits_zero_f32, zero_add]
  unfold var
  refine congrArg (fun s => Ideal.div s c128) (Finset.sum_congr rfl fun k _ => ?_)
  have e : idx_main_v36 (idx_main_v37 (ix2 r u)) k = ix2 r k := by idx_rfl2
  rw [e, val_main_v35_apply, cen_apply]
  rfl

/-- The reciprocal root at row `r`. -/
theorem inv_apply (r : Fin 50000) (u : Fin 1) :
    val_main_v44 (F := Ideal) x0 x1 x2 x3 x4 (ix2 r u) = Ideal.rsqrt (var (zrow x0 x1 x2 x3 x4 r) + eps) := by
  rw [val_main_v44_apply, val_main_v43_apply, var_apply, val_main_v42_apply, val_main_cst_8_apply]
  rfl

/-- The reference's result at `(r, j)`. -/
theorem result_apply (r : Fin 50000) (j : Fin 128) :
    val_main_v53 (F := Ideal) x0 x1 x2 x3 x4 x5 x6 (ix2 r j)
      = outAt x0 (aggRef x0 x1) (mat x2) (mat x4) (vec x3) (vec x5) (vec x6) r j := by
  rw [val_main_v53_apply, val_main_v52_apply, val_main_v49_apply, val_main_v46_apply, cen_apply', val_main_v45_apply,
    val_main_v48_apply, val_main_v47_apply, val_main_v51_apply, val_main_v50_apply, val_main_call0_v0_apply, val_main_call0_cst_apply]
  have e45 : idx_main_v45 (ix2 r j) = ix2 r (0 : Fin 1) := by idx_rfl2
  have e47 : idx_main_v47 (idx_main_v48 (ix2 r j)) = ix1 j := by idx_rfl1
  have e50 : idx_main_v50 (idx_main_v51 (ix2 r j)) = ix1 j := by idx_rfl1
  rw [e45, e47, e50, inv_apply]
  simp only [Ideal.ofBits_def, Ideal.ofBits_zero_f32]
  unfold outAt
  rw [← zrow_eq]
  rfl

/-- The reference's result is the output matrix of the features, the neighbour mean and the parameters. -/
theorem result_eq :
    val_main_v53 (F := Ideal) x0 x1 x2 x3 x4 x5 x6
      = outMat x0 (aggRef x0 x1) (mat x2) (mat x4) (vec x3) (vec x5) (vec x6) := by
  funext i
  obtain ⟨r, j, rfl⟩ : ∃ (r : Fin 50000) (j : Fin 128), i = ix2 r j := ⟨i 0, i 1, eq_ix2 i⟩
  rw [result_apply, outMat_ix2]

end Cert.ReferenceIdeal.RefValue

end
-- ==== Proof.lean ====
/-
  SAGE block: neighbour mean, two projections with a bias, row normalization, scale and shift, clamp at zero.

  Both programs begin with the same host operations, which average the features of each node's neighbours (`aggOf`).
  The kernel then computes, 2000 rows at a time, `(agg · W_l + x · W_r) + b_l`, normalizes each row and clamps; the
  reference computes `(agg · W_l + b_l) + x · W_r` on the whole matrix and does the same. On the extended reals, where
  format changes are the identity and every sum is exact, the two are one function of the arguments, `Sage.outMat`:
  the two spellings of the projection differ by commuting two summands (`Sage.lin_bias_first`), the kernel's 25 row
  blocks tile the 50000 rows (`Arr.final`), and the reference reads as the same row function (`RefValue.result_eq`).
  No finiteness of the inputs is used. The frames of the two kernel programs are the generated ones; the reference's
  frame is its run with the result dropped; the idealization rewrote nothing, so `preserves` is trivial.
-/
import proofs.«112687_j35115652612241_1_alg».proof.Defs
import proofs.«112687_j35115652612241_1_alg».proof.Proof.Gen.Kernel
import proofs.«112687_j35115652612241_1_alg».proof.Proof.Gen.Kernel.Skeleton
import proofs.«112687_j35115652612241_1_alg».proof.Proof.Gen.Kernel.Launch
import proofs.«112687_j35115652612241_1_alg».proof.Proof.Gen.Kernel.Points
import proofs.«112687_j35115652612241_1_alg».proof.Proof.Gen.Kernel.Frame
import proofs.«112687_j35115652612241_1_alg».proof.Proof.Gen.KernelIdeal
import proofs.«112687_j35115652612241_1_alg».proof.Proof.Gen.KernelIdeal.Skeleton
import proofs.«112687_j35115652612241_1_alg».proof.Proof.Gen.KernelIdeal.Launch
import proofs.«112687_j35115652612241_1_alg».proof.Proof.Gen.KernelIdeal.Points
import proofs.«112687_j35115652612241_1_alg».proof.Proof.Gen.KernelIdeal.Frame
import proofs.«112687_j35115652612241_1_alg».proof.Proof.Gen.ReferenceIdeal
import proofs.«112687_j35115652612241_1_alg».proof.Proof.Gen.Pre_finite_inputs
import proofs.«112687_j35115652612241_1_alg».proof.Proof.Gen.KernelIdeal.Value
import proofs.«112687_j35115652612241_1_alg».proof.Proof.Gen.ReferenceIdeal.Run
import proofs.«112687_j35115652612241_1_alg».proof.Proof.Gen.ReferenceIdeal.Read
import proofs.«112687_j35115652612241_1_alg».proof.Proof.KernelValue
import proofs.«112687_j35115652612241_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

section
attribute [local semireducible] Cert.KernelIdeal.HostPart.aggOf

/-- The neighbour mean is one function in both programs: the same operations in the same order on the same words. -/
theorem agg_same (x0 : (⟨Cert.ReferenceIdeal.S50000x128, .f32⟩ : BufTy).Contents (Elt Ideal))
    (x1 : (⟨Cert.ReferenceIdeal.S2x800000, .i32⟩ : BufTy).Contents (Elt Ideal)) :
    Cert.ReferenceIdeal.Read.val_main_v22 (F := Ideal) x0 x1 = Cert.KernelIdeal.HostPart.aggOf (F := Ideal) x0 x1 := rfl
end

/-- Both programs end with `Sage.outMat` of arguments that agree. -/
theorem algebraic : Cert.algebraic_KernelIdeal_ReferenceIdeal := by
  intro m ρ m' ρ' _ hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v53_eq, Cert.ReferenceIdeal.RefValue.result_eq, h0, h1, h2, h3, h4, h5, h6]
  dsimp only [Cert.ReferenceIdeal.RefValue.aggRef]
  rw [agg_same]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
